-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x16 : Shape := ⟨3, ![2048, 4, 16]⟩
abbrev S_ : Shape := ⟨0, ![]⟩

class Facts : Prop where
  bcast_S_S2048x4x16 : S_.BroadcastsInDim S2048x4x16 (![] : Fin 0 → Fin S2048x4x16.rank)
  reducesTo_S2048x4x16_S_d0_1_2 : S2048x4x16.ReducesTo [0, 1, 2] S_
  h_S_ : 0 < S_.numel

variable [Facts]

def fn {F : FTy → Type} [FloatOps F] (main_arg0 : FVec F S2048x4x16 .f32) (main_arg1 : FVec F S2048x4x16 .f32) : IVec S_ 1 :=
  let main_v0 : FVec F S2048x4x16 .f32 := Host.absf main_arg0
  let main_cst : FVec F S_ .f32 := constant S_ .f32 0x7F800000#32
  let main_v1 : FVec F S2048x4x16 .f32 := broadcastInDim S2048x4x16 ![] bcast_S_S2048x4x16 main_cst
  let main_v2 : IVec S2048x4x16 1 := cmpf .olt main_v0 main_v1
  let main_c : IVec S_ 1 := constantI S_ 1 1#1
  let main_v3 : IVec S_ 1 := (fun x v => Host.reduce IntOp.andi x v reducesTo_S2048x4x16_S_d0_1_2 h_S_) main_v2 main_c
  let main_v4 : FVec F S2048x4x16 .f32 := Host.absf main_arg1
  let main_cst_0 : FVec F S_ .f32 := constant S_ .f32 0x7F800000#32
  let main_v5 : FVec F S2048x4x16 .f32 := broadcastInDim S2048x4x16 ![] bcast_S_S2048x4x16 main_cst_0
  let main_v6 : IVec S2048x4x16 1 := cmpf .olt main_v4 main_v5
  let main_c_1 : IVec S_ 1 := constantI S_ 1 1#1
  let main_v7 : IVec S_ 1 := (fun x v => Host.reduce IntOp.andi x v reducesTo_S2048x4x16_S_d0_1_2 h_S_) main_v6 main_c_1
  let main_v8 : IVec S_ 1 := andi main_v3 main_v7
  main_v8
-- ==== Kernel.lean ====
abbrev S2048x4x16 : Shape := ⟨3, ![2048, 4, 16]⟩
abbrev S2048x65536 : Shape := ⟨2, ![2048, 65536]⟩
abbrev S32x4x16 : Shape := ⟨3, ![32, 4, 16]⟩
abbrev S32x65536 : Shape := ⟨2, ![32, 65536]⟩
abbrev S32x1x16 : Shape := ⟨3, ![32, 1, 16]⟩
abbrev S32x16 : Shape := ⟨2, ![32, 16]⟩
abbrev S32x16x1 : Shape := ⟨3, ![32, 16, 1]⟩
abbrev S32x16x16 : Shape := ⟨3, ![32, 16, 16]⟩
abbrev S32x256 : Shape := ⟨2, ![32, 256]⟩
abbrev S32x256x1 : Shape := ⟨3, ![32, 256, 1]⟩
abbrev S32x1x256 : Shape := ⟨3, ![32, 1, 256]⟩
abbrev S32x256x256 : Shape := ⟨3, ![32, 256, 256]⟩
abbrev S2048x16x16x16x16 : Shape := ⟨5, ![2048, 16, 16, 16, 16]⟩

abbrev nBuf : Space → Nat
  | .hbm => 4
  | .vmem => 6
  | .smem => 0
  | _ => 0

abbrev bufTy : (tb : Table) → Fin (tcTables nBuf tb) → BufTy
  | .hbm, ⟨0, _⟩ => ⟨S2048x4x16, .f32⟩
  | .hbm, ⟨1, _⟩ => ⟨S2048x4x16, .f32⟩
  | .hbm, ⟨2, _⟩ => ⟨S2048x65536, .f32⟩
  | .hbm, ⟨3, _⟩ => ⟨S2048x16x16x16x16, .f32⟩
  | .local _ .vmem, ⟨0, _⟩ => ⟨S32x4x16, .f32⟩
  | .local _ .vmem, ⟨1, _⟩ => ⟨S32x4x16, .f32⟩
  | .local _ .vmem, ⟨2, _⟩ => ⟨S32x4x16, .f32⟩
  | .local _ .vmem, ⟨3, _⟩ => ⟨S32x4x16, .f32⟩
  | .local _ .vmem, ⟨4, _⟩ => ⟨S32x65536, .f32⟩
  | .local _ .vmem, ⟨5, _⟩ => ⟨S32x65536, .f32⟩
  | _, _ => ⟨S2048x4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x4x16_S32x4x16_0_0_0 : ∀ a, (![0, 0, 0] : Fin 3 → Nat) a + S32x4x16.size a ≤ S32x4x16.size a
  h_S32x4x16 : 0 < S32x4x16.numel
  slices_S32x4x16_o0_0_0_S32x1x16 : S32x4x16.Slices ![0, 0, 0] S32x1x16
  shapeCasts_S32x1x16_S32x16 : S32x1x16.ShapeCasts S32x16
  slices_S32x4x16_o0_1_0_S32x1x16 : S32x4x16.Slices ![0, 1, 0] S32x1x16
  slices_S32x4x16_o0_2_0_S32x1x16 : S32x4x16.Slices ![0, 2, 0] S32x1x16
  slices_S32x4x16_o0_3_0_S32x1x16 : S32x4x16.Slices ![0, 3, 0] S32x1x16
  shapeCasts_S32x16_S32x16x1 : S32x16.ShapeCasts S32x16x1
  shapeCasts_S32x16_S32x1x16 : S32x16.ShapeCasts S32x1x16
  broadcasts_S32x16x1_S32x16x16 : S32x16x1.Broadcasts S32x16x16
  broadcasts_S32x1x16_S32x16x16 : S32x1x16.Broadcasts S32x16x16
  shapeCasts_S32x16x16_S32x256 : S32x16x16.ShapeCasts S32x256
  shapeCasts_S32x256_S32x256x1 : S32x256.ShapeCasts S32x256x1
  shapeCasts_S32x256_S32x1x256 : S32x256.ShapeCasts S32x1x256
  broadcasts_S32x256x1_S32x256x256 : S32x256x1.Broadcasts S32x256x256
  broadcasts_S32x1x256_S32x256x256 : S32x1x256.Broadcasts S32x256x256
  shapeCasts_S32x256x256_S32x65536 : S32x256x256.ShapeCasts S32x65536
  inb_S32x65536_S32x65536_0_0 : ∀ a, (![0, 0] : Fin 2 → Nat) a + S32x65536.size a ≤ S32x65536.size a
  h_S32x65536 : 0 < S32x65536.numel
  shapeCasts_S2048x65536_S2048x16x16x16x16 : S2048x65536.ShapeCasts S2048x16x16x16x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4x16.size a ≤ S2048x4x16.size a
  hwx0_0 : ∀ i : grid0.Coords, EltTy.bits .f32 = 32 ∨ (Rect.block (s := S2048x4x16) S32x4x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x4x16.size a ≤ S2048x4x16.size a
  hwx0_1 : ∀ i : grid0.Coords, EltTy.bits .f32 = 32 ∨ (Rect.block (s := S2048x4x16) S32x4x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x65536.size a ≤ S2048x65536.size a
  hwx0_2 : ∀ i : grid0.Coords, EltTy.bits .f32 = 32 ∨ (Rect.block (s := S2048x65536) S32x65536.size (cc0_transform_2 i) (hinb0_2 i)).WholeWords (EltTy.packing .f32)

variable [Facts₀]

abbrev win0_0 : Pipeline.Window sig grid0 :=
  Pipeline.Window.ofSpec (Memref.whole main_arg0) S32x4x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x4x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x65536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x4x16 : Shape := ⟨3, ![2048, 4, 16]⟩
abbrev S2048x1x16 : Shape := ⟨3, ![2048, 1, 16]⟩
abbrev S2048x16 : Shape := ⟨2, ![2048, 16]⟩
abbrev S2048x16x1 : Shape := ⟨3, ![2048, 16, 1]⟩
abbrev S2048x16x16 : Shape := ⟨3, ![2048, 16, 16]⟩
abbrev S2048x256 : Shape := ⟨2, ![2048, 256]⟩
abbrev S2048x256x1 : Shape := ⟨3, ![2048, 256, 1]⟩
abbrev S2048x256x16 : Shape := ⟨3, ![2048, 256, 16]⟩
abbrev S2048x4096 : Shape := ⟨2, ![2048, 4096]⟩
abbrev S2048x4096x1 : Shape := ⟨3, ![2048, 4096, 1]⟩
abbrev S2048x4096x16 : Shape := ⟨3, ![2048, 4096, 16]⟩
abbrev S2048x65536 : Shape := ⟨2, ![2048, 65536]⟩
abbrev S2048x16x16x16x16 : Shape := ⟨5, ![2048, 16, 16, 16, 16]⟩

abbrev nBuf : Space → Nat
  | .hbm => 30
  | .vmem => 0
  | .smem => 0
  | _ => 0

abbrev bufTy : (tb : Table) → Fin (tcTables nBuf tb) → BufTy
  | .hbm, ⟨0, _⟩ => ⟨S2048x4x16, .f32⟩
  | .hbm, ⟨1, _⟩ => ⟨S2048x4x16, .f32⟩
  | .hbm, ⟨2, _⟩ => ⟨S2048x4x16, .f32⟩
  | .hbm, ⟨3, _⟩ => ⟨S2048x1x16, .f32⟩
  | .hbm, ⟨4, _⟩ => ⟨S2048x16, .f32⟩
  | .hbm, ⟨5, _⟩ => ⟨S2048x16x1, .f32⟩
  | .hbm, ⟨6, _⟩ => ⟨S2048x1x16, .f32⟩
  | .hbm, ⟨7, _⟩ => ⟨S2048x16, .f32⟩
  | .hbm, ⟨8, _⟩ => ⟨S2048x1x16, .f32⟩
  | .hbm, ⟨9, _⟩ => ⟨S2048x16x16, .f32⟩
  | .hbm, ⟨10, _⟩ => ⟨S2048x16x16, .f32⟩
  | .hbm, ⟨11, _⟩ => ⟨S2048x16x16, .f32⟩
  | .hbm, ⟨12, _⟩ => ⟨S2048x256, .f32⟩
  | .hbm, ⟨13, _⟩ => ⟨S2048x256x1, .f32⟩
  | .hbm, ⟨14, _⟩ => ⟨S2048x1x16, .f32⟩
  | .hbm, ⟨15, _⟩ => ⟨S2048x16, .f32⟩
  | .hbm, ⟨16, _⟩ => ⟨S2048x1x16, .f32⟩
  | .hbm, ⟨17, _⟩ => ⟨S2048x256x16, .f32⟩
  | .hbm, ⟨18, _⟩ => ⟨S2048x256x16, .f32⟩
  | .hbm, ⟨19, _⟩ => ⟨S2048x256x16, .f32⟩
  | .hbm, ⟨20, _⟩ => ⟨S2048x4096, .f32⟩
  | .hbm, ⟨21, _⟩ => ⟨S2048x4096x1, .f32⟩
  | .hbm, ⟨22, _⟩ => ⟨S2048x1x16, .f32⟩
  | .hbm, ⟨23, _⟩ => ⟨S2048x16, .f32⟩
  | .hbm, ⟨24, _⟩ => ⟨S2048x1x16, .f32⟩
  | .hbm, ⟨25, _⟩ => ⟨S2048x4096x16, .f32⟩
  | .hbm, ⟨26, _⟩ => ⟨S2048x4096x16, .f32⟩
  | .hbm, ⟨27, _⟩ => ⟨S2048x4096x16, .f32⟩
  | .hbm, ⟨28, _⟩ => ⟨S2048x65536, .f32⟩
  | .hbm, ⟨29, _⟩ => ⟨S2048x16x16x16x16, .f32⟩
  | _, _ => ⟨S2048x4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩

abbrev nD : Nat := 1
abbrev τ : Topo := Topo.v7x

variable {F : FTy → Type} [FloatOps F]

class Facts₀ : Prop where
  slices_S2048x4x16_S2048x1x16_0_0_0 : S2048x4x16.Slices ![0, 0, 0] S2048x1x16
  shapeCasts_S2048x1x16_S2048x16 : S2048x1x16.ShapeCasts S2048x16
  bcast_S2048x16_S2048x16x1_0_1 : S2048x16.BroadcastsInDim S2048x16x1 (![0, 1] : Fin 2 → Fin S2048x16x1.rank)
  slices_S2048x4x16_S2048x1x16_0_1_0 : S2048x4x16.Slices ![0, 1, 0] S2048x1x16
  bcast_S2048x16_S2048x1x16_0_2 : S2048x16.BroadcastsInDim S2048x1x16 (![0, 2] : Fin 2 → Fin S2048x1x16.rank)
  bcast_S2048x16x1_S2048x16x16_0_1_2 : S2048x16x1.BroadcastsInDim S2048x16x16 (![0, 1, 2] : Fin 3 → Fin S2048x16x16.rank)
  bcast_S2048x1x16_S2048x16x16_0_1_2 : S2048x1x16.BroadcastsInDim S2048x16x16 (![0, 1, 2] : Fin 3 → Fin S2048x16x16.rank)
  shapeCasts_S2048x16x16_S2048x256 : S2048x16x16.ShapeCasts S2048x256
  bcast_S2048x256_S2048x256x1_0_1 : S2048x256.BroadcastsInDim S2048x256x1 (![0, 1] : Fin 2 → Fin S2048x256x1.rank)
  slices_S2048x4x16_S2048x1x16_0_2_0 : S2048x4x16.Slices ![0, 2, 0] S2048x1x16
  bcast_S2048x256x1_S2048x256x16_0_1_2 : S2048x256x1.BroadcastsInDim S2048x256x16 (![0, 1, 2] : Fin 3 → Fin S2048x256x16.rank)
  bcast_S2048x1x16_S2048x256x16_0_1_2 : S2048x1x16.BroadcastsInDim S2048x256x16 (![0, 1, 2] : Fin 3 → Fin S2048x256x16.rank)
  shapeCasts_S2048x256x16_S2048x4096 : S2048x256x16.ShapeCasts S2048x4096
  bcast_S2048x4096_S2048x4096x1_0_1 : S2048x4096.BroadcastsInDim S2048x4096x1 (![0, 1] : Fin 2 → Fin S2048x4096x1.rank)
  slices_S2048x4x16_S2048x1x16_0_3_0 : S2048x4x16.Slices ![0, 3, 0] S2048x1x16
  bcast_S2048x4096x1_S2048x4096x16_0_1_2 : S2048x4096x1.BroadcastsInDim S2048x4096x16 (![0, 1, 2] : Fin 3 → Fin S2048x4096x16.rank)
  bcast_S2048x1x16_S2048x4096x16_0_1_2 : S2048x1x16.BroadcastsInDim S2048x4096x16 (![0, 1, 2] : Fin 3 → Fin S2048x4096x16.rank)
  shapeCasts_S2048x4096x16_S2048x65536 : S2048x4096x16.ShapeCasts S2048x65536
  shapeCasts_S2048x65536_S2048x16x16x16x16 : S2048x65536.ShapeCasts S2048x16x16x16x16

variable [Facts₀]

class Facts : Prop extends Facts₀ where

variable [Facts]
-- ==== Proof.LibOuter.lean ====
/-
  Outer products laid out flat, read at an index.

  Given a table `u` of shape [B, P] and a table `v` of shape [B, Q], the row-wise outer product
  `w[r, a, b] = u[r, a] * v[r, b]` of shape [B, P, Q] is usually produced by viewing `u` as a column [B, P, 1] and
  `v` as a row [B, 1, Q], broadcasting both to [B, P, Q], multiplying entry by entry, and flattening the two trailing
  axes to one of length P * Q.  Entry `a * Q + b` of row `r` of the flattened product is then `u[r, a] * v[r, b]`.
  This file proves that reading, one layout step at a time and then for the whole chain, for every B, P, Q: the
  vector form (shape casts and trailing-axis broadcasts) and the host form (`broadcast_in_dim` along named axes).
  It also reads one row `n` of the middle axis of a [B, K, L] table, cut out as [B, 1, L] and viewed as [B, L].
  Only the row-major arithmetic `(r * P + a) * Q + b = r * (P * Q) + (a * Q + b)` is used.
-/
import Idealize.ShloMosaic.Lib.ValueIdx
import Idealize.ShloMosaic.Lib.Pipeline.Value

namespace Cert.LibOuter

open Idealize.ShloMosaic Idealize.ShloMosaic.ValueIdx

variable {α : Type}

/-! ## The single layout steps -/

/-- Flattening the two trailing axes: entry `a * Q + b` of row `r` of the flat table is entry `(r, a, b)`. -/
theorem flatten_apply {B P Q N : ℕ} (hN : N = P * Q) (w : (⟨3, ![B, P, Q]⟩ : Shape).Idx → α)
    (h : (⟨3, ![B, P, Q]⟩ : Shape).ShapeCasts ⟨2, ![B, N]⟩) (r : Fin B) (a : Fin P) (b : Fin Q) (j : Fin N)
    (hj : j.val = a.val * Q + b.val) :
    shapeCast ⟨2, ![B, N]⟩ w h (ix2 r j) = w (ix3 r a b) := by
  subst hN
  refine shapeCast_apply w h (ix2 r j) (ix3 r a b) ?_
  rw [Shape.rowMajor_val_two, Shape.rowMajor_val_three]
  show (r.val * P + a.val) * Q + b.val = r.val * (P * Q) + j.val
  rw [hj]; ring

/-- A [B, P] table viewed as a column [B, P, 1]. -/
theorem column_apply {B P : ℕ} (u : (⟨2, ![B, P]⟩ : Shape).Idx → α)
    (h : (⟨2, ![B, P]⟩ : Shape).ShapeCasts ⟨3, ![B, P, 1]⟩) (r : Fin B) (a : Fin P) (z : Fin 1) :
    shapeCast ⟨3, ![B, P, 1]⟩ u h (ix3 r a z) = u (ix2 r a) := by
  refine shapeCast_apply u h (ix3 r a z) (ix2 r a) ?_
  rw [Shape.rowMajor_val_two, Shape.rowMajor_val_three]
  show r.val * P + a.val = (r.val * P + a.val) * 1 + z.val
  have hz : z.val = 0 := by have := z.isLt; omega
  rw [hz]; ring

/-- A [B, Q] table viewed as a row [B, 1, Q]. -/
theorem row_apply {B Q : ℕ} (v : (⟨2, ![B, Q]⟩ : Shape).Idx → α)
    (h : (⟨2, ![B, Q]⟩ : Shape).ShapeCasts ⟨3, ![B, 1, Q]⟩) (r : Fin B) (z : Fin 1) (b : Fin Q) :
    shapeCast ⟨3, ![B, 1, Q]⟩ v h (ix3 r z b) = v (ix2 r b) := by
  refine shapeCast_apply v h (ix3 r z b) (ix2 r b) ?_
  rw [Shape.rowMajor_val_two, Shape.rowMajor_val_three]
  show r.val * Q + b.val = (r.val * 1 + z.val) * Q + b.val
  have hz : z.val = 0 := by have := z.isLt; omega
  rw [hz]; ring

/-- A column [B, P, 1] broadcast along its last axis: entry `(r, a, b)` is the column's entry `(r, a, 0)`. -/
theorem spread_column_apply {B P Q : ℕ} (x : (⟨3, ![B, P, 1]⟩ : Shape).Idx → α)
    (h : (⟨3, ![B, P, 1]⟩ : Shape).Broadcasts ⟨3, ![B, P, Q]⟩) (r : Fin B) (a : Fin P) (b : Fin Q) :
    broadcastTo ⟨3, ![B, P, Q]⟩ x h (ix3 r a b) = x (ix3 r a ⟨0, Nat.one_pos⟩) := by
  refine broadcastTo_apply x h (ix3 r a b) (ix3 r a ⟨0, Nat.one_pos⟩) fun d => ?_
  match d with
  | ⟨0, _⟩ =>
    show r.val = if B = 1 then 0 else r.val
    split
    · have := r.isLt; omega
    · rfl
  | ⟨1, _⟩ =>
    show a.val = if P = 1 then 0 else a.val
    split
    · have := a.isLt; omega
    · rfl
  | ⟨2, _⟩ => show (0 : ℕ) = if (1 : ℕ) = 1 then 0 else b.val; rfl

/-- A row [B, 1, Q] broadcast along its middle axis: entry `(r, a, b)` is the row's entry `(r, 0, b)`. -/
theorem spread_row_apply {B P Q : ℕ} (x : (⟨3, ![B, 1, Q]⟩ : Shape).Idx → α)
    (h : (⟨3, ![B, 1, Q]⟩ : Shape).Broadcasts ⟨3, ![B, P, Q]⟩) (r : Fin B) (a : Fin P) (b : Fin Q) :
    broadcastTo ⟨3, ![B, P, Q]⟩ x h (ix3 r a b) = x (ix3 r ⟨0, Nat.one_pos⟩ b) := by
  refine broadcastTo_apply x h (ix3 r a b) (ix3 r ⟨0, Nat.one_pos⟩ b) fun d => ?_
  match d with
  | ⟨0, _⟩ =>
    show r.val = if B = 1 then 0 else r.val
    split
    · have := r.isLt; omega
    · rfl
  | ⟨1, _⟩ => show (0 : ℕ) = if (1 : ℕ) = 1 then 0 else a.val; rfl
  | ⟨2, _⟩ =>
    show b.val = if Q = 1 then 0 else b.val
    split
    · have := b.isLt; omega
    · rfl

/-- Row `n` of the middle axis, cut out as [B, 1, L] and viewed as [B, L]: entry `(r, l)` is entry `(r, n, l)`. -/
theorem pick_row_apply {B K L : ℕ} (n : ℕ) (hn : n < K) (x : (⟨3, ![B, K, L]⟩ : Shape).Idx → α)
    (hs : (⟨3, ![B, K, L]⟩ : Shape).Slices ![0, n, 0] ⟨3, ![B, 1, L]⟩)
    (hc : (⟨3, ![B, 1, L]⟩ : Shape).ShapeCasts ⟨2, ![B, L]⟩) (r : Fin B) (l : Fin L) :
    shapeCast ⟨2, ![B, L]⟩ (extractStridedSlice ⟨3, ![B, 1, L]⟩ ![0, n, 0] x hs) hc (ix2 r l) = x (ix3 r ⟨n, hn⟩ l) := by
  refine (shapeCast_apply _ hc (ix2 r l) (ix3 r ⟨0, Nat.one_pos⟩ l) ?_).trans ?_
  · rw [Shape.rowMajor_val_two, Shape.rowMajor_val_three]
    show (r.val * 1 + 0) * L + l.val = r.val * L + l.val
    ring
  · refine extractStridedSlice_apply ![0, n, 0] x hs (ix3 r ⟨0, Nat.one_pos⟩ l) (ix3 r ⟨n, hn⟩ l) fun d => ?_
    match d with
    | ⟨0, _⟩ => show r.val = 0 + r.val; omega
    | ⟨1, _⟩ => show n = n + 0; omega
    | ⟨2, _⟩ => show l.val = 0 + l.val; omega

/-! ## The flat outer product, vector form -/

/-- Column of `u` times row of `v`, both spread to [B, P, Q], combined by `f` entry by entry and flattened:
    entry `a * Q + b` of row `r` is `f (u[r, a]) (v[r, b])`. -/
theorem outer_flat_apply {B P Q N : ℕ} (hN : N = P * Q) (f : α → α → α)
    (u : (⟨2, ![B, P]⟩ : Shape).Idx → α) (v : (⟨2, ![B, Q]⟩ : Shape).Idx → α)
    (hc : (⟨2, ![B, P]⟩ : Shape).ShapeCasts ⟨3, ![B, P, 1]⟩) (hr : (⟨2, ![B, Q]⟩ : Shape).ShapeCasts ⟨3, ![B, 1, Q]⟩)
    (hbc : (⟨3, ![B, P, 1]⟩ : Shape).Broadcasts ⟨3, ![B, P, Q]⟩) (hbr : (⟨3, ![B, 1, Q]⟩ : Shape).Broadcasts ⟨3, ![B, P, Q]⟩)
    (hf : (⟨3, ![B, P, Q]⟩ : Shape).ShapeCasts ⟨2, ![B, N]⟩)
    (r : Fin B) (a : Fin P) (b : Fin Q) (j : Fin N) (hj : j.val = a.val * Q + b.val) :
    shapeCast ⟨2, ![B, N]⟩
        (fun i => f (broadcastTo ⟨3, ![B, P, Q]⟩ (shapeCast ⟨3, ![B, P, 1]⟩ u hc) hbc i)
                    (broadcastTo ⟨3, ![B, P, Q]⟩ (shapeCast ⟨3, ![B, 1, Q]⟩ v hr) hbr i)) hf (ix2 r j)
      = f (u (ix2 r a)) (v (ix2 r b)) := by
  rw [flatten_apply hN _ hf r a b j hj]
  show f (broadcastTo ⟨3, ![B, P, Q]⟩ (shapeCast ⟨3, ![B, P, 1]⟩ u hc) hbc (ix3 r a b))
         (broadcastTo ⟨3, ![B, P, Q]⟩ (shapeCast ⟨3, ![B, 1, Q]⟩ v hr) hbr (ix3 r a b)) = _
  rw [spread_column_apply, spread_row_apply, column_apply, row_apply]

/-! ## The flat outer product, host form -/

/-- A [B, P] table placed on axes 0 and 1 of [B, P, 1]. -/
theorem host_column_apply {B P : ℕ} (u : (⟨2, ![B, P]⟩ : Shape).Idx → α)
    (h : (⟨2, ![B, P]⟩ : Shape).BroadcastsInDim ⟨3, ![B, P, 1]⟩ ![0, 1]) (r : Fin B) (a : Fin P) (z : Fin 1) :
    broadcastInDim ⟨3, ![B, P, 1]⟩ ![0, 1] h u (ix3 r a z) = u (ix2 r a) := by
  refine broadcastInDim_apply ![0, 1] h u (ix3 r a z) (ix2 r a) fun d => ?_
  match d with
  | ⟨0, _⟩ =>
    show r.val = if B = 1 then 0 else r.val
    split
    · have := r.isLt; omega
    · rfl
  | ⟨1, _⟩ =>
    show a.val = if P = 1 then 0 else a.val
    split
    · have := a.isLt; omega
    · rfl

/-- A [B, Q] table placed on axes 0 and 2 of [B, 1, Q]. -/
theorem host_row_apply {B Q : ℕ} (v : (⟨2, ![B, Q]⟩ : Shape).Idx → α)
    (h : (⟨2, ![B, Q]⟩ : Shape).BroadcastsInDim ⟨3, ![B, 1, Q]⟩ ![0, 2]) (r : Fin B) (z : Fin 1) (b : Fin Q) :
    broadcastInDim ⟨3, ![B, 1, Q]⟩ ![0, 2] h v (ix3 r z b) = v (ix2 r b) := by
  refine broadcastInDim_apply ![0, 2] h v (ix3 r z b) (ix2 r b) fun d => ?_
  match d with
  | ⟨0, _⟩ =>
    show r.val = if B = 1 then 0 else r.val
    split
    · have := r.isLt; omega
    · rfl
  | ⟨1, _⟩ =>
    show b.val = if Q = 1 then 0 else b.val
    split
    · have := b.isLt; omega
    · rfl

/-- A column [B, P, 1] broadcast in place to [B, P, Q]. -/
theorem host_spread_column_apply {B P Q : ℕ} (x : (⟨3, ![B, P, 1]⟩ : Shape).Idx → α)
    (h : (⟨3, ![B, P, 1]⟩ : Shape).BroadcastsInDim ⟨3, ![B, P, Q]⟩ ![0, 1, 2]) (r : Fin B) (a : Fin P) (b : Fin Q) :
    broadcastInDim ⟨3, ![B, P, Q]⟩ ![0, 1, 2] h x (ix3 r a b) = x (ix3 r a ⟨0, Nat.one_pos⟩) := by
  refine broadcastInDim_apply ![0, 1, 2] h x (ix3 r a b) (ix3 r a ⟨0, Nat.one_pos⟩) fun d => ?_
  match d with
  | ⟨0, _⟩ =>
    show r.val = if B = 1 then 0 else r.val
    split
    · have := r.isLt; omega
    · rfl
  | ⟨1, _⟩ =>
    show a.val = if P = 1 then 0 else a.val
    split
    · have := a.isLt; omega
    · rfl
  | ⟨2, _⟩ => show (0 : ℕ) = if (1 : ℕ) = 1 then 0 else b.val; rfl

/-- A row [B, 1, Q] broadcast in place to [B, P, Q]. -/
theorem host_spread_row_apply {B P Q : ℕ} (x : (⟨3, ![B, 1, Q]⟩ : Shape).Idx → α)
    (h : (⟨3, ![B, 1, Q]⟩ : Shape).BroadcastsInDim ⟨3, ![B, P, Q]⟩ ![0, 1, 2]) (r : Fin B) (a : Fin P) (b : Fin Q) :
    broadcastInDim ⟨3, ![B, P, Q]⟩ ![0, 1, 2] h x (ix3 r a b) = x (ix3 r ⟨0, Nat.one_pos⟩ b) := by
  refine broadcastInDim_apply ![0, 1, 2] h x (ix3 r a b) (ix3 r ⟨0, Nat.one_pos⟩ b) fun d => ?_
  match d with
  | ⟨0, _⟩ =>
    show r.val = if B = 1 then 0 else r.val
    split
    · have := r.isLt; omega
    · rfl
  | ⟨1, _⟩ => show (0 : ℕ) = if (1 : ℕ) = 1 then 0 else a.val; rfl
  | ⟨2, _⟩ =>
    show b.val = if Q = 1 then 0 else b.val
    split
    · have := b.isLt; omega
    · rfl

/-- The host's flat outer product: `u` placed as a column, `v` as a row, both broadcast to [B, P, Q], combined by
    `f` and flattened: entry `a * Q + b` of row `r` is `f (u[r, a]) (v[r, b])`. -/
theorem host_outer_flat_apply {B P Q N : ℕ} (hN : N = P * Q) (f : α → α → α)
    (u : (⟨2, ![B, P]⟩ : Shape).Idx → α) (v : (⟨2, ![B, Q]⟩ : Shape).Idx → α)
    (hc : (⟨2, ![B, P]⟩ : Shape).BroadcastsInDim ⟨3, ![B, P, 1]⟩ ![0, 1])
    (hr : (⟨2, ![B, Q]⟩ : Shape).BroadcastsInDim ⟨3, ![B, 1, Q]⟩ ![0, 2])
    (hbc : (⟨3, ![B, P, 1]⟩ : Shape).BroadcastsInDim ⟨3, ![B, P, Q]⟩ ![0, 1, 2])
    (hbr : (⟨3, ![B, 1, Q]⟩ : Shape).BroadcastsInDim ⟨3, ![B, P, Q]⟩ ![0, 1, 2])
    (hf : (⟨3, ![B, P, Q]⟩ : Shape).ShapeCasts ⟨2, ![B, N]⟩)
    (r : Fin B) (a : Fin P) (b : Fin Q) (j : Fin N) (hj : j.val = a.val * Q + b.val) :
    shapeCast ⟨2, ![B, N]⟩
        (fun i => f (broadcastInDim ⟨3, ![B, P, Q]⟩ ![0, 1, 2] hbc (broadcastInDim ⟨3, ![B, P, 1]⟩ ![0, 1] hc u) i)
                    (broadcastInDim ⟨3, ![B, P, Q]⟩ ![0, 1, 2] hbr (broadcastInDim ⟨3, ![B, 1, Q]⟩ ![0, 2] hr v) i)) hf (ix2 r j)
      = f (u (ix2 r a)) (v (ix2 r b)) := by
  rw [flatten_apply hN _ hf r a b j hj]
  show f (broadcastInDim ⟨3, ![B, P, Q]⟩ ![0, 1, 2] hbc (broadcastInDim ⟨3, ![B, P, 1]⟩ ![0, 1] hc u) (ix3 r a b))
         (broadcastInDim ⟨3, ![B, P, Q]⟩ ![0, 1, 2] hbr (broadcastInDim ⟨3, ![B, 1, Q]⟩ ![0, 2] hr v) (ix3 r a b)) = _
  rw [host_spread_column_apply, host_spread_row_apply, host_column_apply, host_row_apply]

/-! ## Both forms with the floats' product -/

variable {F : FTy → Type} [FloatOps F] {φ : FTy}

/-- The vector form with `mulf`. -/
theorem outer_flat_mulf_apply {B P Q N : ℕ} (hN : N = P * Q)
    (u : FVec F ⟨2, ![B, P]⟩ φ) (v : FVec F ⟨2, ![B, Q]⟩ φ)
    (hc : (⟨2, ![B, P]⟩ : Shape).ShapeCasts ⟨3, ![B, P, 1]⟩) (hr : (⟨2, ![B, Q]⟩ : Shape).ShapeCasts ⟨3, ![B, 1, Q]⟩)
    (hbc : (⟨3, ![B, P, 1]⟩ : Shape).Broadcasts ⟨3, ![B, P, Q]⟩) (hbr : (⟨3, ![B, 1, Q]⟩ : Shape).Broadcasts ⟨3, ![B, P, Q]⟩)
    (hf : (⟨3, ![B, P, Q]⟩ : Shape).ShapeCasts ⟨2, ![B, N]⟩)
    (r : Fin B) (a : Fin P) (b : Fin Q) (j : Fin N) (hj : j.val = a.val * Q + b.val) :
    shapeCast ⟨2, ![B, N]⟩
        (mulf (broadcastTo ⟨3, ![B, P, Q]⟩ (shapeCast ⟨3, ![B, P, 1]⟩ u hc) hbc)
              (broadcastTo ⟨3, ![B, P, Q]⟩ (shapeCast ⟨3, ![B, 1, Q]⟩ v hr) hbr)) hf (ix2 r j)
      = FloatOps.mulf (u (ix2 r a)) (v (ix2 r b)) :=
  outer_flat_apply hN FloatOps.mulf u v hc hr hbc hbr hf r a b j hj

/-- The host form with `mulf`. -/
theorem host_outer_flat_mulf_apply {B P Q N : ℕ} (hN : N = P * Q)
    (u : FVec F ⟨2, ![B, P]⟩ φ) (v : FVec F ⟨2, ![B, Q]⟩ φ)
    (hc : (⟨2, ![B, P]⟩ : Shape).BroadcastsInDim ⟨3, ![B, P, 1]⟩ ![0, 1])
    (hr : (⟨2, ![B, Q]⟩ : Shape).BroadcastsInDim ⟨3, ![B, 1, Q]⟩ ![0, 2])
    (hbc : (⟨3, ![B, P, 1]⟩ : Shape).BroadcastsInDim ⟨3, ![B, P, Q]⟩ ![0, 1, 2])
    (hbr : (⟨3, ![B, 1, Q]⟩ : Shape).BroadcastsInDim ⟨3, ![B, P, Q]⟩ ![0, 1, 2])
    (hf : (⟨3, ![B, P, Q]⟩ : Shape).ShapeCasts ⟨2, ![B, N]⟩)
    (r : Fin B) (a : Fin P) (b : Fin Q) (j : Fin N) (hj : j.val = a.val * Q + b.val) :
    shapeCast ⟨2, ![B, N]⟩
        (mulf (broadcastInDim ⟨3, ![B, P, Q]⟩ ![0, 1, 2] hbc (broadcastInDim ⟨3, ![B, P, 1]⟩ ![0, 1] hc u))
              (broadcastInDim ⟨3, ![B, P, Q]⟩ ![0, 1, 2] hbr (broadcastInDim ⟨3, ![B, 1, Q]⟩ ![0, 2] hr v))) hf (ix2 r j)
      = FloatOps.mulf (u (ix2 r a)) (v (ix2 r b)) :=
  host_outer_flat_apply hN FloatOps.mulf u v hc hr hbc hbr hf r a b j hj

end Cert.LibOuter
-- ==== Proof.Spec.lean ====
/-
  The specification: what both programs compute.

  Two inputs `x`, `y` of shape [B, 4, 16] are added entry by entry; for each row `r` the four length-16 vectors
  `s[r, 0, ·], …, s[r, 3, ·]` of the sum `s = x + y` are multiplied out into their 4-fold outer product, stored flat:
  position `j = ((l₀ · 16 + l₁) · 16 + l₂) · 16 + l₃` of row `r` holds `s[r,0,l₀] · s[r,1,l₁] · s[r,2,l₂] · s[r,3,l₃]`.
  The `lᵢ` are the base-16 digits of `j`.  The product is written here in two groupings: in two pairs,
  `(f₀ · f₁) · (f₂ · f₃)`, and left to right, `((f₀ · f₁) · f₂) · f₃`.  They agree by associativity of the
  multiplication of extended reals, which holds at every value, infinite ones and zero included; so no finiteness
  of the inputs is needed.
-/
import Idealize.ShloMosaic.PureOps.Ideal
import Idealize.ShloMosaic.Lib.ValueIdx

noncomputable section

namespace Cert.Spec

open Idealize.ShloMosaic Idealize.ShloMosaic.ValueIdx

/-! ## The base-16 digits of a position below 16⁴ -/

def digit3 (j : Fin 65536) : Fin 16 := ⟨j.val / 4096, by have := j.isLt; omega⟩
def digit2 (j : Fin 65536) : Fin 16 := ⟨j.val / 256 % 16, Nat.mod_lt _ (by decide)⟩
def digit1 (j : Fin 65536) : Fin 16 := ⟨j.val / 16 % 16, Nat.mod_lt _ (by decide)⟩
def digit0 (j : Fin 65536) : Fin 16 := ⟨j.val % 16, Nat.mod_lt _ (by decide)⟩

/-- The two leading digits as one number below 256, and the two trailing ones. -/
def hi (j : Fin 65536) : Fin 256 := ⟨j.val / 256, by have := j.isLt; omega⟩
def lo (j : Fin 65536) : Fin 256 := ⟨j.val % 256, Nat.mod_lt _ (by decide)⟩

theorem split_hi_lo (j : Fin 65536) : j.val = (hi j).val * 256 + (lo j).val := by
  show j.val = j.val / 256 * 256 + j.val % 256; omega
theorem split_hi (j : Fin 65536) : (hi j).val = (digit3 j).val * 16 + (digit2 j).val := by
  show j.val / 256 = j.val / 4096 * 16 + j.val / 256 % 16; omega
theorem split_lo (j : Fin 65536) : (lo j).val = (digit1 j).val * 16 + (digit0 j).val := by
  show j.val % 256 = j.val / 16 % 16 * 16 + j.val % 16; omega

/-- The three leading digits as one number below 4096. -/
def hi3 (j : Fin 65536) : Fin 4096 := ⟨j.val / 16, by have := j.isLt; omega⟩

theorem split_hi3 (j : Fin 65536) : j.val = (hi3 j).val * 16 + (digit0 j).val := by
  show j.val = j.val / 16 * 16 + j.val % 16; omega
theorem split_hi3_hi (j : Fin 65536) : (hi3 j).val = (hi j).val * 16 + (digit1 j).val := by
  show j.val / 16 = j.val / 256 * 16 + j.val / 16 % 16; omega

/-! ## The result, row by row -/

variable {B : ℕ}

/-- Factor `n` of row `r` at lane `l`: the sum of the two inputs there. -/
def factor (x y : (⟨3, ![B, 4, 16]⟩ : Shape).Idx → EReal) (r : Fin B) (n : Fin 4) (l : Fin 16) : EReal :=
  x (ix3 r n l) + y (ix3 r n l)

/-- The flat 4-fold outer product, grouped in two pairs. -/
def pairs (x y : (⟨3, ![B, 4, 16]⟩ : Shape).Idx → EReal) : (⟨2, ![B, 65536]⟩ : Shape).Idx → EReal := fun i =>
  (factor x y (i 0) 0 (digit3 (i 1)) * factor x y (i 0) 1 (digit2 (i 1)))
    * (factor x y (i 0) 2 (digit1 (i 1)) * factor x y (i 0) 3 (digit0 (i 1)))

/-- The same, multiplied left to right. -/
def leftToRight (x y : (⟨3, ![B, 4, 16]⟩ : Shape).Idx → EReal) : (⟨2, ![B, 65536]⟩ : Shape).Idx → EReal := fun i =>
  ((factor x y (i 0) 0 (digit3 (i 1)) * factor x y (i 0) 1 (digit2 (i 1)))
    * factor x y (i 0) 2 (digit1 (i 1))) * factor x y (i 0) 3 (digit0 (i 1))

/-- The two-pair product at explicit coordinates. -/
theorem pairs_at (x y : (⟨3, ![B, 4, 16]⟩ : Shape).Idx → EReal) (r : Fin B) (j : Fin 65536) :
    pairs x y (ix2 r j) = (factor x y r 0 (digit3 j) * factor x y r 1 (digit2 j))
      * (factor x y r 2 (digit1 j) * factor x y r 3 (digit0 j)) := rfl

/-- The left-to-right product at explicit coordinates. -/
theorem leftToRight_at (x y : (⟨3, ![B, 4, 16]⟩ : Shape).Idx → EReal) (r : Fin B) (j : Fin 65536) :
    leftToRight x y (ix2 r j) = ((factor x y r 0 (digit3 j) * factor x y r 1 (digit2 j))
      * factor x y r 2 (digit1 j)) * factor x y r 3 (digit0 j) := rfl

/-- The two groupings are one function: associativity of the product of extended reals. -/
theorem leftToRight_eq_pairs (x y : (⟨3, ![B, 4, 16]⟩ : Shape).Idx → EReal) : leftToRight x y = pairs x y :=
  funext fun _ => mul_assoc _ _ _

end Cert.Spec

end
-- ==== Proof.KernelBlock.lean ====
/-
  What the kernel's body stores, on one block of 32 rows.

  The body adds the two [32, 4, 16] blocks, takes the four middle-axis rows of the sum as [32, 16] tables, forms the
  flat outer product of rows 0 and 1 and of rows 2 and 3 ([32, 256] each), and then the flat outer product of those
  two ([32, 65536]).  Reading each flat outer product at a position split into its leading and trailing part, entry
  `j` of row `r` of the stored block is `(f₀ · f₁) · (f₂ · f₃)` with `fₙ` the sum's entry `(r, n, lₙ)` at the
  base-16 digits `l₀ l₁ l₂ l₃` of `j`: the specification's two-pair grouping.
-/
import proofs.«109189_j49735721287938_1_alg».proof.Proof.Gen.KernelIdeal.Skeleton
import proofs.«109189_j49735721287938_1_alg».proof.Proof.LibOuter
import proofs.«109189_j49735721287938_1_alg».proof.Proof.Spec

noncomputable section

namespace Cert.KernelIdeal.Block

open Idealize.ShloMosaic Idealize.ShloMosaic.ValueIdx Cert.KernelIdeal Cert.KernelIdeal.Gen Cert.LibOuter Cert.Spec

/-- The stored block is the specification on the 32 rows of the loaded blocks. -/
theorem pay_eq (x0 x1 : Vec Ideal S32x4x16 .f32) : k0_pay1 (F := Ideal) x0 x1 = pairs (B := 32) x0 x1 := by
  funext i
  obtain ⟨r, j, rfl⟩ : ∃ (r : Fin 32) (j : Fin 65536), i = ix2 r j := ⟨i 0, i 1, eq_ix2 i⟩
  unfold k0_pay1
  -- the last outer product, at (hi j) * 256 + (lo j)
  refine (outer_flat_mulf_apply (F := Ideal) (B := 32) (P := 256) (Q := 256) (N := 65536) (by norm_num) _ _ _ _ _ _ _
    r (hi j) (lo j) j (split_hi_lo j)).trans ?_
  -- the two pairwise ones, at digit3 * 16 + digit2 and digit1 * 16 + digit0
  rw [outer_flat_mulf_apply (F := Ideal) (B := 32) (P := 16) (Q := 16) (N := 256) (by norm_num) _ _ _ _ _ _ _
      r (digit3 j) (digit2 j) (hi j) (split_hi j),
    outer_flat_mulf_apply (F := Ideal) (B := 32) (P := 16) (Q := 16) (N := 256) (by norm_num) _ _ _ _ _ _ _
      r (digit1 j) (digit0 j) (lo j) (split_lo j)]
  -- the four rows of the sum
  rw [pick_row_apply (B := 32) (K := 4) (L := 16) 0 (by norm_num), pick_row_apply (B := 32) (K := 4) (L := 16) 1 (by norm_num),
    pick_row_apply (B := 32) (K := 4) (L := 16) 2 (by norm_num), pick_row_apply (B := 32) (K := 4) (L := 16) 3 (by norm_num)]
  rfl

end Cert.KernelIdeal.Block

end
-- ==== Proof.KernelWhole.lean ====
/-
  The kernel's result array, and its result after the final reshape.

  The grid has 64 points; point `t` reads rows `32 t … 32 t + 31` of both arguments and writes the same rows of the
  [2048, 65536] output, the full width.  What it writes is the specification on those 32 rows (the block lemma), and the
  specification of a row depends on that row of the arguments only; so block `t` of the output is block `t` of the
  specification of the whole arguments.  Row `R` lies in the block of point `R / 32`, so the 64 blocks cover the array
  and the output array ends as the specification.  The program's result is that array reshaped to
  [2048, 16, 16, 16, 16] by the one host operation after the region.
-/
import proofs.«109189_j49735721287938_1_alg».proof.Proof.Gen.KernelIdeal.Frame
import proofs.«109189_j49735721287938_1_alg».proof.Proof.KernelBlock
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- Every window's block index at point `t` is `t` on the row axis and 0 on the others. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- Every block row of the output is some point's. -/
theorem block_onto : ∀ q : Fin 64, ∃ t : Fin cfg0.N, win0_2.index t = ![q.val, 0] :=
  (by decide +kernel : ∀ q : Fin 64, ∃ t : Fin grid0.N, win0_2.index t = ![q.val, 0])

/-- Row `r` of the first input's block at point `t` is row `32 t + r` of the first argument. -/
theorem in0_apply (c : Dev nD) (t : Fin cfg0.N) (r : Fin 32) (n : Fin 4) (l : Fin 16) (R : Fin 2048)
    (hR : R.val = t.val * 32 + r.val) : iblk m c 0 t (ix3 r n l) = V m c main_arg0 (ix3 R n l) := by
  show V m c main_arg0 (((cfg0.win 0).blk t).view.emb (ix3 r n l)) = V m c main_arg0 (ix3 R n l)
  have h : ((cfg0.win 0).blk t).view.emb (ix3 r n l) = ix3 R n l := by
    obtain ⟨e0, e1, e2, -⟩ := block_index t
    funext a; apply Fin.ext
    match a with
    | ⟨0, _⟩ => show win0_0.index t (0 : Fin 3) * 32 + 1 * r.val = R.val; omega
    | ⟨1, _⟩ => show win0_0.index t (1 : Fin 3) * 4 + 1 * n.val = n.val; omega
    | ⟨2, _⟩ => show win0_0.index t (2 : Fin 3) * 16 + 1 * l.val = l.val; omega
  rw [h]

/-- The same for the second input. -/
theorem in1_apply (c : Dev nD) (t : Fin cfg0.N) (r : Fin 32) (n : Fin 4) (l : Fin 16) (R : Fin 2048)
    (hR : R.val = t.val * 32 + r.val) : iblk m c 1 t (ix3 r n l) = V m c main_arg1 (ix3 R n l) := by
  show V m c main_arg1 (((cfg0.win 1).blk t).view.emb (ix3 r n l)) = V m c main_arg1 (ix3 R n l)
  have h : ((cfg0.win 1).blk t).view.emb (ix3 r n l) = ix3 R n l := by
    obtain ⟨-, -, -, e0, e1, e2, -⟩ := block_index t
    funext a; apply Fin.ext
    match a with
    | ⟨0, _⟩ => show win0_1.index t (0 : Fin 3) * 32 + 1 * r.val = R.val; omega
    | ⟨1, _⟩ => show win0_1.index t (1 : Fin 3) * 4 + 1 * n.val = n.val; omega
    | ⟨2, _⟩ => show win0_1.index t (2 : Fin 3) * 16 + 1 * l.val = l.val; omega
  rw [h]

/-- What point `t` writes back is block `t` of the specification of the whole arguments. -/
theorem flushed_eq (c : Dev nD) (t : Fin cfg0.N) :
    (dats m 0 c).flushed 2 t
      = ((cfg0.win 2).blk t).view.read (Elt Ideal) (pairs (B := 2048) (V m c main_arg0) (V m c main_arg1)) := by
  show (cfg0.win 2).cut (grid0.coords t) ((dats m 0 c).after 2 t) = _
  rw [after0_2]
  unfold out0_2
  rw [View.canon_unit_zero zero2]
  simp only [View.ld_unit_zero (S := S32x4x16) zero3]
  rw [Block.pay_eq]
  funext y
  obtain ⟨r, j, rfl⟩ : ∃ (r : Fin 32) (j : Fin 65536), y = ix2 r j := ⟨y 0, y 1, eq_ix2 y⟩
  have ht : t.val < 64 := Nat.lt_of_lt_of_eq t.isLt N_0
  have hE : ((cfg0.win 2).blk t).view.emb (ix2 r j) = ix2 (⟨t.val * 32 + r.val, by have := r.isLt; omega⟩ : Fin 2048) j := by
    obtain ⟨-, -, -, -, -, -, e0, e1⟩ := block_index t
    funext a; apply Fin.ext
    match a with
    | ⟨0, _⟩ => show win0_2.index t (0 : Fin 2) * 32 + 1 * r.val = t.val * 32 + r.val; omega
    | ⟨1, _⟩ => show win0_2.index t (1 : Fin 2) * 65536 + 1 * j.val = j.val; omega
  show pairs (B := 32) (iblk m c 0 t) (iblk m c 1 t) (ix2 r j)
    = pairs (B := 2048) (V m c main_arg0) (V m c main_arg1) (((cfg0.win 2).blk t).view.emb (ix2 r j))
  rw [hE, pairs_at, pairs_at]
  unfold factor
  simp only [in0_apply m c t r _ _ ⟨t.val * 32 + r.val, by have := r.isLt; omega⟩ rfl,
    in1_apply m c t r _ _ ⟨t.val * 32 + r.val, by have := r.isLt; omega⟩ rfl]

/-- An index of the output array lies in point `t`'s block iff each coordinate is in the block's range. -/
theorem mem_blk (t : Fin cfg0.N) (i : S2048x65536.Idx) :
    i ∈ ((cfg0.win 2).blk t).view.set ↔ ∀ a : Fin 2, win0_2.index t a * S32x65536.size a ≤ (i a).val
      ∧ (i a).val < win0_2.index t a * S32x65536.size a + S32x65536.size a := by
  show i ∈ ((View.whole main_v0).slice (win0_2.rect t)).set ↔ _
  rw [View.set_slice_whole, Rect.mem_set_unit]
  exact Iff.rfl

/-- Row `R` is written by point `R / 32`: the blocks cover the output. -/
theorem covered (i : S2048x65536.Idx) :
    ∃ t : Fin cfg0.N, (cfg0.win 2).flush t = true ∧ i ∈ ((cfg0.win 2).blk t).view.set := by
  have hi0 : (i 0).val < 2048 := (i 0).isLt
  have hi1 : (i 1).val < 65536 := (i 1).isLt
  obtain ⟨t, ht⟩ := block_onto ⟨(i 0).val / 32, by omega⟩
  have q0 : win0_2.index t (0 : Fin 2) = (i 0).val / 32 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 65536 ≤ (i 1).val ∧ (i 1).val < win0_2.index t (1 : Fin 2) * 65536 + 65536; omega

/-- The output array after the run is the specification of the arguments. -/
theorem final (c : Dev nD) : (dats m 0 c).arrAt 2 cfg0.N
    = pairs (B := 2048) (m ((c : Thread nD τ).loc main_arg0)) (m ((c : Thread nD τ).loc main_arg1)) :=
  (dats m 0 c).arrAt_eq_of_cover 2 _ (fun t _ => flushed_eq m c t) covered

/-- The result buffer is in none of the windows. -/
theorem result_bypasses : main_v1 ∈ Pipeline.restRefs sig spec0 :=
  Pipeline.mem_restRefs_of main_v1 rfl (by decide)

/-- The host operation after the region reshapes the output array. -/
theorem tail_eq (c : Dev nD) : Pipeline.afterTail₀ cfgs (dats m) 0 (V0 m) [hostOps1] c main_v1
    = shapeCast S2048x16x16x16x16
        (pairs (B := 2048) (m ((c : Thread nD τ).loc main_arg0)) (m ((c : Thread nD τ).loc main_arg1)))
        shapeCasts_S2048x65536_S2048x16x16x16x16 := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = pairs (B := 2048) (m ((c : Thread nD τ).loc main_arg0)) (m ((c : Thread nD τ).loc main_arg1)) :=
    (Pipeline.withArrays_arr spec0 launch0.win.arr_inj c _ _ 2).trans (final m c)
  rw [hw]
  rfl

/-- The kernel program's run, read: its result is the specification reshaped to [2048, 16, 16, 16, 16], and the
    arguments end as they began. -/
theorem run : θ_run defs (onTc (τ := τ) (main (F := Ideal))) ⟨m, fun _ => 0, ρ⟩ fun r => ∀ c : Dev nD,
      r.2.mem ((c.tc : Thread nD τ).loc main_v1)
        = shapeCast S2048x16x16x16x16
            (pairs (B := 2048) (m ((c.tc : Thread nD τ).loc main_arg0)) (m ((c.tc : Thread nD τ).loc main_arg1)))
            shapeCasts_S2048x65536_S2048x16x16x16x16
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 result_bypasses).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Whole

end
-- ==== Proof.RefValue.lean ====
/-
  What the reference computes.

  The reference adds the two [2048, 4, 16] arguments, takes the four middle-axis rows of the sum as [2048, 16] tables,
  and multiplies them out one after the other: the flat outer product of rows 0 and 1 ([2048, 256]), then of that with
  row 2 ([2048, 4096]), then of that with row 3 ([2048, 65536]); a last reshape gives [2048, 16, 16, 16, 16].  Each
  flat outer product is read at a position split into its leading part and its last base-16 digit, so entry `j` of
  row `r` of the [2048, 65536] stage is `((f₀ · f₁) · f₂) · f₃` at the digits of `j`: the specification's
  left-to-right grouping, and so, by associativity, its two-pair grouping.
-/
import proofs.«109189_j49735721287938_1_alg».proof.Proof.Gen.ReferenceIdeal.Run
import proofs.«109189_j49735721287938_1_alg».proof.Proof.LibOuter
import proofs.«109189_j49735721287938_1_alg».proof.Proof.Spec

noncomputable section

namespace Cert.ReferenceIdeal.RefValue

open Idealize.ShloMosaic Idealize.ShloMosaic.ValueIdx Cert.ReferenceIdeal Cert.ReferenceIdeal.Gen Cert.LibOuter Cert.Spec

/-! ## The stages, as the program spells them -/

/-- Row `n` of the sum, as a [2048, 16] table. -/
def row (x y : FVec Ideal S2048x4x16 .f32) (n : ℕ) (hs : S2048x4x16.Slices ![0, n, 0] S2048x1x16) : FVec Ideal S2048x16 .f32 :=
  shapeCast S2048x16 (extractStridedSlice S2048x1x16 ![0, n, 0] (addf x y) hs) shapeCasts_S2048x1x16_S2048x16

/-- Rows 0 and 1 multiplied out: [2048, 256]. -/
def stage1 (x y : FVec Ideal S2048x4x16 .f32) : FVec Ideal S2048x256 .f32 :=
  shapeCast S2048x256
    (mulf (broadcastInDim S2048x16x16 ![0, 1, 2] bcast_S2048x16x1_S2048x16x16_0_1_2
            (broadcastInDim S2048x16x1 ![0, 1] bcast_S2048x16_S2048x16x1_0_1 (row x y 0 slices_S2048x4x16_S2048x1x16_0_0_0)))
          (broadcastInDim S2048x16x16 ![0, 1, 2] bcast_S2048x1x16_S2048x16x16_0_1_2
            (broadcastInDim S2048x1x16 ![0, 2] bcast_S2048x16_S2048x1x16_0_2 (row x y 1 slices_S2048x4x16_S2048x1x16_0_1_0))))
    shapeCasts_S2048x16x16_S2048x256

/-- That multiplied out with row 2: [2048, 4096]. -/
def stage2 (x y : FVec Ideal S2048x4x16 .f32) : FVec Ideal S2048x4096 .f32 :=
  shapeCast S2048x4096
    (mulf (broadcastInDim S2048x256x16 ![0, 1, 2] bcast_S2048x256x1_S2048x256x16_0_1_2
            (broadcastInDim S2048x256x1 ![0, 1] bcast_S2048x256_S2048x256x1_0_1 (stage1 x y)))
          (broadcastInDim S2048x256x16 ![0, 1, 2] bcast_S2048x1x16_S2048x256x16_0_1_2
            (broadcastInDim S2048x1x16 ![0, 2] bcast_S2048x16_S2048x1x16_0_2 (row x y 2 slices_S2048x4x16_S2048x1x16_0_2_0))))
    shapeCasts_S2048x256x16_S2048x4096

/-- That multiplied out with row 3: [2048, 65536]. -/
def stage3 (x y : FVec Ideal S2048x4x16 .f32) : FVec Ideal S2048x65536 .f32 :=
  shapeCast S2048x65536
    (mulf (broadcastInDim S2048x4096x16 ![0, 1, 2] bcast_S2048x4096x1_S2048x4096x16_0_1_2
            (broadcastInDim S2048x4096x1 ![0, 1] bcast_S2048x4096_S2048x4096x1_0_1 (stage2 x y)))
          (broadcastInDim S2048x4096x16 ![0, 1, 2] bcast_S2048x1x16_S2048x4096x16_0_1_2
            (broadcastInDim S2048x1x16 ![0, 2] bcast_S2048x16_S2048x1x16_0_2 (row x y 3 slices_S2048x4x16_S2048x1x16_0_3_0))))
    shapeCasts_S2048x4096x16_S2048x65536

/-! ## The stages read at an index -/

theorem row_apply (x y : FVec Ideal S2048x4x16 .f32) (n : ℕ) (hn : n < 4) (hs : S2048x4x16.Slices ![0, n, 0] S2048x1x16)
    (r : Fin 2048) (l : Fin 16) : row x y n hs (ix2 r l) = factor (B := 2048) x y r ⟨n, hn⟩ l :=
  pick_row_apply (B := 2048) (K := 4) (L := 16) n hn (addf x y) hs shapeCasts_S2048x1x16_S2048x16 r l

theorem stage1_apply (x y : FVec Ideal S2048x4x16 .f32) (r : Fin 2048) (a b : Fin 16) (p : Fin 256)
    (hp : p.val = a.val * 16 + b.val) :
    stage1 x y (ix2 r p) = factor (B := 2048) x y r 0 a * factor (B := 2048) x y r 1 b := by
  refine (host_outer_flat_mulf_apply (F := Ideal) (B := 2048) (P := 16) (Q := 16) (N := 256) (by norm_num) _ _ _ _ _ _ _
    r a b p hp).trans ?_
  rw [row_apply x y 0 (by norm_num), row_apply x y 1 (by norm_num)]
  rfl

theorem stage2_apply (x y : FVec Ideal S2048x4x16 .f32) (r : Fin 2048) (p : Fin 256) (c : Fin 16) (q : Fin 4096)
    (hq : q.val = p.val * 16 + c.val) :
    stage2 x y (ix2 r q) = stage1 x y (ix2 r p) * factor (B := 2048) x y r 2 c := by
  refine (host_outer_flat_mulf_apply (F := Ideal) (B := 2048) (P := 256) (Q := 16) (N := 4096) (by norm_num) _ _ _ _ _ _ _
    r p c q hq).trans ?_
  rw [row_apply x y 2 (by norm_num)]
  rfl

theorem stage3_apply (x y : FVec Ideal S2048x4x16 .f32) (r : Fin 2048) (q : Fin 4096) (d : Fin 16) (j : Fin 65536)
    (hj : j.val = q.val * 16 + d.val) :
    stage3 x y (ix2 r j) = stage2 x y (ix2 r q) * factor (B := 2048) x y r 3 d := by
  refine (host_outer_flat_mulf_apply (F := Ideal) (B := 2048) (P := 4096) (Q := 16) (N := 65536) (by norm_num) _ _ _ _ _ _ _
    r q d j hj).trans ?_
  rw [row_apply x y 3 (by norm_num)]
  rfl

/-- The [2048, 65536] stage is the specification. -/
theorem stage3_eq (x y : FVec Ideal S2048x4x16 .f32) : stage3 x y = pairs (B := 2048) x y := by
  rw [← leftToRight_eq_pairs]
  funext i
  obtain ⟨r, j, rfl⟩ : ∃ (r : Fin 2048) (j : Fin 65536), i = ix2 r j := ⟨i 0, i 1, eq_ix2 i⟩
  rw [stage3_apply x y r (hi3 j) (digit0 j) j (split_hi3 j), stage2_apply x y r (hi j) (digit1 j) (hi3 j) (split_hi3_hi j),
    stage1_apply x y r (digit3 j) (digit2 j) (hi j) (split_hi j), leftToRight_at]

end Cert.ReferenceIdeal.RefValue

end
-- ==== Proof.lean ====
/-
  The kernel and its reference compute one function.

  Both programs take two float arrays `x`, `y` of shape [2048, 4, 16], add them, and for every row `r` multiply out the
  four length-16 vectors `s[r, 0, ·], …, s[r, 3, ·]` of the sum into their 4-fold outer product, of shape
  [2048, 16, 16, 16, 16]: entry `(r, l₀, l₁, l₂, l₃)` is `s[r,0,l₀] · s[r,1,l₁] · s[r,2,l₂] · s[r,3,l₃]`.
  The kernel works on blocks of 32 rows and groups the product in two pairs, `(f₀ · f₁) · (f₂ · f₃)`, each pair a flat
  outer product of length 256 and the last one a flat outer product of length 65536; the reference multiplies left to
  right, `((f₀ · f₁) · f₂) · f₃`, through flat outer products of lengths 256, 4096 and 65536.  Both end with the same
  reshape of the flat [2048, 65536] table.  Read at an index, each flat table is the product of the four factors at the
  base-16 digits of the position; the two groupings agree by associativity of the product of extended reals, which
  needs no finiteness, so the precondition is not used.  Nothing was rewritten in idealizing the kernel, so the
  idealization claim is trivial; the three frames are the generated frame runs and the reference's generated run.
-/
import proofs.«109189_j49735721287938_1_alg».proof.Defs
import proofs.«109189_j49735721287938_1_alg».proof.Proof.Gen.Kernel
import proofs.«109189_j49735721287938_1_alg».proof.Proof.Gen.Kernel.Skeleton
import proofs.«109189_j49735721287938_1_alg».proof.Proof.Gen.Kernel.Launch
import proofs.«109189_j49735721287938_1_alg».proof.Proof.Gen.Kernel.Points
import proofs.«109189_j49735721287938_1_alg».proof.Proof.Gen.Kernel.Frame
import proofs.«109189_j49735721287938_1_alg».proof.Proof.Gen.KernelIdeal
import proofs.«109189_j49735721287938_1_alg».proof.Proof.Gen.KernelIdeal.Skeleton
import proofs.«109189_j49735721287938_1_alg».proof.Proof.Gen.KernelIdeal.Launch
import proofs.«109189_j49735721287938_1_alg».proof.Proof.Gen.KernelIdeal.Points
import proofs.«109189_j49735721287938_1_alg».proof.Proof.Gen.KernelIdeal.Frame
import proofs.«109189_j49735721287938_1_alg».proof.Proof.Gen.ReferenceIdeal
import proofs.«109189_j49735721287938_1_alg».proof.Proof.Gen.ReferenceIdeal.Run
import proofs.«109189_j49735721287938_1_alg».proof.Proof.Gen.Pre_finite_inputs
import proofs.«109189_j49735721287938_1_alg».proof.Proof.KernelWhole
import proofs.«109189_j49735721287938_1_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification's flat table, reshaped: the kernel's by its blocks covering the array, the
    reference's by its three successive outer products, at arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  show shapeCast Cert.ReferenceIdeal.S2048x16x16x16x16
      (Cert.ReferenceIdeal.RefValue.stage3
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)))
      _ = _
  rw [Cert.ReferenceIdeal.RefValue.stage3_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
